-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S1024x512 : Shape := ⟨2, ![1024, 512]⟩
abbrev S1024x1024 : Shape := ⟨2, ![1024, 1024]⟩

abbrev nBuf : Space → Nat
  | .hbm => 25
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x512, .f32⟩
  | .hbm, ⟨19, _⟩ => ⟨S8192x512, .f32⟩
  | .hbm, ⟨20, _⟩ => ⟨S8192x512, .bf16⟩
  | .hbm, ⟨21, _⟩ => ⟨S8192x512, .f32⟩
  | .hbm, ⟨22, _⟩ => ⟨S8192x512, .f32⟩
  | .hbm, ⟨23, _⟩ => ⟨S8192x512, .bf16⟩
  | .hbm, ⟨24, _⟩ => ⟨S8192x8192, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v8) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 26
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S_S8192x8192 : S_.BroadcastsInDim S8192x8192 (![] : Fin 0 → Fin S8192x8192.rank)
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.GramSpec.lean ====
/-
  The mathematics both programs compute, stated once over plain index sets.

  Two families of 8192 rows of length 512 are given, `a` and `b`. The result is the 8192 × 8192 table whose entry
  (r, s) is the inner product of row r of `a` with row s of `b`, multiplied by sixteen. The kernel multiplies the
  inner product by sixteen on the right and the reference on the left; multiplication of extended reals commutes, so
  the two tables are one. No distributive or cancellation law is used, hence nothing is asked of the inputs.
-/
import Idealize.ShloMosaic.PureOps.Ideal
import Idealize.ShloMosaic.Lib.ValueIdx

noncomputable section

open scoped BigOperators

namespace Cert.CosineGram

open Idealize.ShloMosaic Idealize.ShloMosaic.ValueIdx

/-- 8192 rows of length 512. -/
abbrev Rows : Shape := ⟨2, ![8192, 512]⟩
/-- All pairs (row of the first family, row of the second). -/
abbrev Pairs : Shape := ⟨2, ![8192, 8192]⟩

/-- The factor both programs scale by: the extended real the single-precision word of 16.0 denotes. -/
abbrev sixteen : EReal := Ideal.ofBits .f32 0x41800000#32

/-- The inner product of row `r` of `a` with row `s` of `b`. -/
def rowDot (a b : Rows.Idx → EReal) (r s : Fin 8192) : EReal :=
  ∑ k : Fin 512, a (ix2 r k) * b (ix2 s k)

/-- The scaled table of inner products: entry (r, s) is `rowDot a b r s` times sixteen. -/
def scaledGram (a b : Rows.Idx → EReal) : Pairs.Idx → EReal :=
  fun i => rowDot a b (i 0) (i 1) * sixteen

/-- The entry at explicit coordinates. -/
theorem scaledGram_apply (a b : Rows.Idx → EReal) (r s : Fin 8192) :
    scaledGram a b (ix2 r s) = rowDot a b r s * sixteen := rfl

/-- Sixteen times the inner product is the inner product times sixteen. -/
theorem sixteen_mul_rowDot (a b : Rows.Idx → EReal) (r s : Fin 8192) :
    sixteen * rowDot a b r s = rowDot a b r s * sixteen := mul_comm _ _

end Cert.CosineGram

end
-- ==== Proof.RefGram.lean ====
/-
  The reference's result, read index by index, is the scaled table of inner products of its two normalised inputs.

  The reference divides each input row by its clamped Euclidean norm (the stages `val_main_v7` for the first input
  and `val_main_v9` for the second), contracts the two normalised arrays over the row length, and multiplies the
  result by sixteen on the left. Entry (r, s) of the contraction is the inner product of row r of the first with
  row s of the second; sixteen times it is it times sixteen.
-/
import proofs.«103429_j57543971832353_1_alg».proof.Proof.Gen.ReferenceIdeal.Read
import proofs.«103429_j57543971832353_1_alg».proof.Proof.GramSpec

noncomputable section

open scoped BigOperators

namespace Cert.ReferenceIdeal.RefGram

open Cert.ReferenceIdeal Cert.ReferenceIdeal.Read Cert.CosineGram
open Idealize.ShloMosaic Idealize.ShloMosaic.ValueIdx

/-- The contraction's left operand index at output (r, s) and position k is (r, k). -/
theorem left_index (r s : Fin 8192) (k : Fin 512) : lidx_main_v10 (ix2 r s) k = ix2 r k :=
  funext fun a => Fin.ext (by match a with | ⟨0, _⟩ => rfl | ⟨1, _⟩ => rfl)

/-- The contraction's right operand index at output (r, s) and position k is (s, k). -/
theorem right_index (r s : Fin 8192) (k : Fin 512) : ridx_main_v10 (ix2 r s) k = ix2 s k :=
  funext fun a => Fin.ext (by match a with | ⟨0, _⟩ => rfl | ⟨1, _⟩ => rfl)

/-- The reference's result is the scaled table of inner products of the two normalised inputs. -/
theorem result_is_scaledGram (x0 x1 : (⟨S8192x512, .f32⟩ : BufTy).Contents (Elt Ideal)) :
    val_main_v12 (F := Ideal) x0 x1
      = scaledGram (val_main_v7 (F := Ideal) x0) (val_main_v9 (F := Ideal) x1) := by
  funext i
  obtain ⟨r, s, rfl⟩ : ∃ (r s : Fin 8192), i = ix2 r s := ⟨i 0, i 1, eq_ix2 i⟩
  rw [val_main_v12_apply, val_main_v11_apply, val_main_cst_1_apply, val_main_v10_apply, scaledGram_apply]
  simp only [left_index, right_index]
  exact sixteen_mul_rowDot _ _ r s

end Cert.ReferenceIdeal.RefGram

end
-- ==== Proof.BlockProduct.lean ====
/-
  One entry of what the kernel body stores at a grid point.

  The body loads a block of 1024 rows of the first normalised array and a block of 1024 rows of the second, forms
  all 1024 × 1024 inner products of a row of the one with a row of the other (a matrix product contracting the row
  length, into a zero accumulator) and multiplies each by sixteen on the right. Entry (p, q) of the stored block is
  therefore the inner product of row p of the first block with row q of the second, times sixteen.
-/
import proofs.«103429_j57543971832353_1_alg».proof.Proof.Gen.KernelIdeal.Skeleton
import proofs.«103429_j57543971832353_1_alg».proof.Proof.GramSpec
import Idealize.ShloMosaic.Lib.Pipeline.Value
import Idealize.ShloMosaic.Lib.ValueIdx
import Idealize.ShloMosaic.PureOps.Ideal.Laws

noncomputable section

open scoped BigOperators

namespace Cert.KernelIdeal.BlockProduct

open Cert.KernelIdeal Cert.KernelIdeal.Gen Cert.CosineGram
open Idealize.ShloMosaic Idealize.ShloMosaic.ValueIdx

/-- The product's left operand is read at the output's row … -/
theorem lhs_axis0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
/-- … and at the contracted position; -/
theorem lhs_axis1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
/-- the right operand at the output's column, as a row of the second block, … -/
theorem rhs_axis0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
/-- … and at the contracted position. -/
theorem rhs_axis1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- Entry (p, q) of the matrix product of two blocks of rows, into a zero accumulator, is the inner product of row p
    of the first with row q of the second. -/
theorem matmul_entry (x0 x1 : FVec Ideal S1024x512 .bf16) (p q : Fin 1024) :
    matmul dot_S1024x512_S1024x512_S1024x1024_1_1_0_0_n_n none x0 x1 (constant S1024x1024 .f32 0x00000000#32) (ix2 p q)
      = ∑ k : Fin 512, x0 (ix2 p k) * x1 (ix2 q k) := by
  simp only [matmul]
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun a => Fin.ext (by
    match a with
    | ⟨0, _⟩ => exact lhs_axis0 _ _
    | ⟨1, _⟩ => exact (lhs_axis1 _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun a => Fin.ext (by
    match a with
    | ⟨0, _⟩ => exact rhs_axis0 _ _
    | ⟨1, _⟩ => exact (rhs_axis1 _ _).trans hk)
  rw [el, er]

/-- Entry (p, q) of the block the body stores: the inner product of row p of the first loaded block with row q of
    the second, times sixteen. -/
theorem stored_entry (x0 x1 : Vec Ideal S1024x512 .bf16) (p q : Fin 1024) :
    k0_pay1 (F := Ideal) x0 x1 (ix2 p q) = (∑ k : Fin 512, x0 (ix2 p k) * x1 (ix2 q k)) * sixteen := by
  unfold k0_pay1
  simp only [shapeCast_self]
  exact congrArg (· * sixteen) (matmul_entry x0 x1 p q)

end Cert.KernelIdeal.BlockProduct

end
-- ==== Proof.GramArray.lean ====
/-
  The kernel's result array after its run is the scaled table of inner products of the two arrays its region reads.

  The region walks an 8 × 8 grid. At point (u, v) it reads rows 1024·u … 1024·u + 1023 of the first array and rows
  1024·v … 1024·v + 1023 of the second, and writes back the 1024 × 1024 block of the result at block position (u, v).
  Entry (p, q) of that block is the inner product of row 1024·u + p of the first array with row 1024·v + q of the
  second, times sixteen: the entry of the scaled table at (1024·u + p, 1024·v + q). The 64 blocks tile the result, so
  every entry of the result is written, by the point whose block position is its coordinates divided by 1024.
-/
import proofs.«103429_j57543971832353_1_alg».proof.Proof.Gen.KernelIdeal.Value
import proofs.«103429_j57543971832353_1_alg».proof.Proof.BlockProduct
import proofs.«103429_j57543971832353_1_alg».proof.Proof.GramSpec
import Idealize.ShloMosaic.Lib.Pipeline.Value

noncomputable section

open scoped BigOperators

namespace Cert.KernelIdeal.GramArray

open Cert.KernelIdeal Cert.KernelIdeal.Gen Cert.KernelIdeal.Value Cert.CosineGram
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The array the first window reads, as the region finds it. -/
abbrev firstRows (c : Dev nD) : Rows.Idx → EReal := V m c main_v8
/-- The array the second window reads, as the region finds it. -/
abbrev secondRows (c : Dev nD) : Rows.Idx → EReal := V m c main_v11

/-- The first window's block at a point, at its literal type. -/
abbrev firstBlock (c : Dev nD) (t : Fin cfg0.N) : Vec Ideal S1024x512 .bf16 := iblk m c 0 t
/-- The second window's block at a point, at its literal type. -/
abbrev secondBlock (c : Dev nD) (t : Fin cfg0.N) : Vec Ideal S1024x512 .bf16 := iblk m c 1 t

/-- Where the three windows' blocks sit at each grid point: the first window's block row is the output's block row,
    the second window's block row is the output's block column, neither moves along the row length, and the output's
    block positions stay below 8. Decided over the 64 points. -/
theorem block_positions : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 7 :=
  (by decide +kernel : ∀ t : Fin grid0.N, _)

/-- Every block position of the 8 × 8 tiling is some point's. -/
theorem every_position : ∀ (u v : Fin 8), ∃ t : Fin cfg0.N, win0_2.index t = ![u.val, v.val] :=
  (by decide +kernel : ∀ (u v : Fin 8), ∃ t : Fin grid0.N, win0_2.index t = ![u.val, v.val])

/-- Row `p` of the first window's block at point `t` is row `1024·u + p` of the first array, `u` the output's block row. -/
theorem firstBlock_entry (c : Dev nD) (t : Fin cfg0.N) (p : Fin 1024) (k : Fin 512) (r : Fin 8192)
    (hr : r.val = win0_2.index t (0 : Fin 2) * 1024 + p.val) :
    firstBlock m c t (ix2 p k) = firstRows m c (ix2 r k) := by
  obtain ⟨e0, e1, -, -, -, -⟩ := block_positions t
  unfold firstBlock iblk
  rw [View.read_apply]
  show V m c main_v8 _ = V m c main_v8 _
  congr 1
  funext a
  apply Fin.ext
  match a with
  | ⟨0, _⟩ => show win0_0.index t (0 : Fin 2) * 1024 + 1 * p.val = r.val; rw [e0, hr]; omega
  | ⟨1, _⟩ => show win0_0.index t (1 : Fin 2) * 512 + 1 * k.val = k.val; rw [e1]; omega

/-- Row `q` of the second window's block at point `t` is row `1024·v + q` of the second array, `v` the output's block column. -/
theorem secondBlock_entry (c : Dev nD) (t : Fin cfg0.N) (q : Fin 1024) (k : Fin 512) (s : Fin 8192)
    (hs : s.val = win0_2.index t (1 : Fin 2) * 1024 + q.val) :
    secondBlock m c t (ix2 q k) = secondRows m c (ix2 s k) := by
  obtain ⟨-, -, e2, e3, -, -⟩ := block_positions t
  unfold secondBlock iblk
  rw [View.read_apply]
  show V m c main_v11 _ = V m c main_v11 _
  congr 1
  funext a
  apply Fin.ext
  match a with
  | ⟨0, _⟩ => show win0_1.index t (0 : Fin 2) * 1024 + 1 * q.val = s.val; rw [e2, hs]; omega
  | ⟨1, _⟩ => show win0_1.index t (1 : Fin 2) * 512 + 1 * k.val = k.val; rw [e3]; omega

/-- What point `t` writes back is block `t` of the scaled table of inner products of the two arrays. -/
theorem written_block (c : Dev nD) (t : Fin cfg0.N) :
    (dats m 0 c).flushed 2 t
      = ((cfg0.win 2).blk t).view.read (Elt Ideal) (scaledGram (firstRows m c) (secondRows m c)) := by
  rw [flushed2]
  unfold out0_2
  rw [View.canon_unit_zero origin]
  simp only [View.ld_unit_zero (S := S1024x512) origin]
  funext j
  obtain ⟨p, q, rfl⟩ : ∃ (p q : Fin 1024), j = ix2 p q := ⟨j 0, j 1, eq_ix2 j⟩
  show k0_pay1 (firstBlock m c t) (secondBlock m c t) (ix2 p q)
    = scaledGram (firstRows m c) (secondRows m c) (((cfg0.win 2).blk t).view.emb (ix2 p q))
  refine (BlockProduct.stored_entry (firstBlock m c t) (secondBlock m c t) p q).trans ?_
  show _ = rowDot (firstRows m c) (secondRows m c) ((((cfg0.win 2).blk t).view.emb (ix2 p q)) 0)
    ((((cfg0.win 2).blk t).view.emb (ix2 p q)) 1) * sixteen
  refine congrArg (· * sixteen) (Finset.sum_congr rfl fun k _ => ?_)
  rw [firstBlock_entry m c t p k ((((cfg0.win 2).blk t).view.emb (ix2 p q)) 0) (by
      show win0_2.index t (0 : Fin 2) * 1024 + 1 * p.val = _; omega),
    secondBlock_entry m c t q k ((((cfg0.win 2).blk t).view.emb (ix2 p q)) 1) (by
      show win0_2.index t (1 : Fin 2) * 1024 + 1 * q.val = _; omega)]

/-- An entry of the result lies in point `t`'s block iff each coordinate lies in the block's range on its axis. -/
theorem mem_block (t : Fin cfg0.N) (i : S8192x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v12).slice (win0_2.rect t)).set ↔ _
  rw [View.set_slice_whole, Rect.mem_set_unit]
  exact Iff.rfl

/-- Every entry of the result is in the block of the point whose block position is the entry's coordinates divided
    by 1024. -/
theorem every_entry_written (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := every_position ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array after the run is the scaled table of inner products of the two arrays the region reads. -/
theorem result_array (c : Dev nD) :
    (dats m 0 c).arrAt 2 cfg0.N = scaledGram (firstRows m c) (secondRows m c) :=
  (dats m 0 c).arrAt_eq_of_cover 2 (scaledGram (firstRows m c) (secondRows m c))
    (fun t _ => written_block m c t) every_entry_written

/-- The kernel's run: it terminates, the result holds the scaled table, the inputs are unchanged. -/
theorem run : θ_run defs (onTc (τ := τ) (main (F := Ideal))) ⟨m, fun _ => 0, ρ⟩ fun r => ∀ c : Dev nD,
      r.2.mem ((c : Thread nD τ).loc main_v12) = scaledGram (firstRows m c) (secondRows m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_array m c), (h c).2⟩)
    (Value.run_blocks m ρ)

end Cert.KernelIdeal.GramArray

end
-- ==== Proof.NormalizedRows.lean ====
/-
  The two arrays the kernel's region reads are the reference's two normalised inputs.

  Before its region the kernel's program divides each input row by its clamped Euclidean norm, with the same
  operations in the same order as the reference, and then narrows the quotient to a shorter float format. Over the
  extended reals a change of format is the identity, so the array the region's first window reads is the
  reference's stage for the first input, and the second window's array is the stage for the second input.
-/
import proofs.«103429_j57543971832353_1_alg».proof.Proof.Gen.KernelIdeal.Frame
import proofs.«103429_j57543971832353_1_alg».proof.Proof.Gen.ReferenceIdeal.Read
import Idealize.ShloMosaic.Lib.StableHlo.Run

noncomputable section

namespace Cert.KernelIdeal.NormalizedRows

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The first window's array, as the region finds it, is the first input with every row divided by its clamped norm. -/
theorem first_rows (c : Dev nD) :
    (V m c main_v8 : S8192x512.Idx → EReal)
      = Cert.ReferenceIdeal.Read.val_main_v7 (F := Ideal) (m ((c : Thread nD τ).loc main_arg0)) := by
  dsimp only [V]
  simp only [hostOps0, hostOps0_1, hostOps0_2, hostOps0_3, List.flatten_cons, List.flatten_nil, List.append_nil,
    List.cons_append, List.nil_append]
  after_results
  rfl

/-- The second window's array is the second input with every row divided by its clamped norm. -/
theorem second_rows (c : Dev nD) :
    (V m c main_v11 : S8192x512.Idx → EReal)
      = Cert.ReferenceIdeal.Read.val_main_v9 (F := Ideal) (m ((c : Thread nD τ).loc main_arg1)) := by
  dsimp only [V]
  simp only [hostOps0, hostOps0_1, hostOps0_2, hostOps0_3, List.flatten_cons, List.flatten_nil, List.append_nil,
    List.cons_append, List.nil_append]
  after_results
  rfl

end Cert.KernelIdeal.NormalizedRows

end
-- ==== Proof.lean ====
/-
  Pairwise scaled cosine similarity of two families of 8192 vectors of length 512.

  Both programs first divide every input row by its Euclidean norm clamped below by a small positive constant, with
  the same operations in the same order (the kernel's program then narrows the quotients to a shorter float format,
  which is the identity over the extended reals). The kernel's region then forms, block by block over an 8 × 8 grid,
  all inner products of a normalised row of the first input with a normalised row of the second and multiplies each
  by sixteen on the right; the reference contracts the two normalised arrays in one operation and multiplies by
  sixteen on the left. Entry (r, s) of either result is sixteen times the inner product of normalised row r of the
  first input with normalised row s of the second: the only law joining the two sides is that multiplication of
  extended reals commutes, so the finiteness of the inputs is never used.

  The pieces: the common specification (Proof/GramSpec.lean), the reference's result as that specification of its two
  normalised stages (Proof/RefGram.lean), one entry of the block the kernel body stores (Proof/BlockProduct.lean), the
  kernel's result array as that specification of the two arrays its region reads (Proof/GramArray.lean), and those two
  arrays as the reference's normalised stages (Proof/NormalizedRows.lean). No operation of the kernel was rewritten for
  its idealised reading, so that conjunct is trivial; the three termination-and-unchanged-inputs conjuncts are the
  generated runs.
-/
import proofs.«103429_j57543971832353_1_alg».proof.Defs
import proofs.«103429_j57543971832353_1_alg».proof.Proof.Gen.Kernel
import proofs.«103429_j57543971832353_1_alg».proof.Proof.Gen.Kernel.Skeleton
import proofs.«103429_j57543971832353_1_alg».proof.Proof.Gen.Kernel.Launch
import proofs.«103429_j57543971832353_1_alg».proof.Proof.Gen.Kernel.Points
import proofs.«103429_j57543971832353_1_alg».proof.Proof.Gen.Kernel.Frame
import proofs.«103429_j57543971832353_1_alg».proof.Proof.Gen.KernelIdeal
import proofs.«103429_j57543971832353_1_alg».proof.Proof.Gen.KernelIdeal.Skeleton
import proofs.«103429_j57543971832353_1_alg».proof.Proof.Gen.KernelIdeal.Launch
import proofs.«103429_j57543971832353_1_alg».proof.Proof.Gen.KernelIdeal.Points
import proofs.«103429_j57543971832353_1_alg».proof.Proof.Gen.KernelIdeal.Frame
import proofs.«103429_j57543971832353_1_alg».proof.Proof.Gen.ReferenceIdeal
import proofs.«103429_j57543971832353_1_alg».proof.Proof.Gen.Pre_finite_inputs
import proofs.«103429_j57543971832353_1_alg».proof.Proof.Gen.KernelIdeal.Value
import proofs.«103429_j57543971832353_1_alg».proof.Proof.Gen.ReferenceIdeal.Run
import proofs.«103429_j57543971832353_1_alg».proof.Proof.Gen.ReferenceIdeal.Read
import proofs.«103429_j57543971832353_1_alg».proof.Proof.GramSpec
import proofs.«103429_j57543971832353_1_alg».proof.Proof.RefGram
import proofs.«103429_j57543971832353_1_alg».proof.Proof.BlockProduct
import proofs.«103429_j57543971832353_1_alg».proof.Proof.GramArray
import proofs.«103429_j57543971832353_1_alg».proof.Proof.NormalizedRows
import Idealize.ShloMosaic.Adequacy
import Idealize.ShloMosaic.Init

noncomputable section

namespace Cert.Proof

open Idealize.ShloMosaic Idealize.SL.Sem Cert.CosineGram

/-- The kernel as printed terminates and leaves its inputs unchanged. -/
theorem frame_kernel : Cert.frame_Kernel := fun m ρ _ => Cert.Kernel.Gen.frame m ρ

/-- So does its idealised reading. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten for the idealised reading. -/
theorem preserves : Cert.preserves_Kernel_KernelIdeal := trivial

/-- From memories agreeing on the inputs both programs end with the scaled table of inner products of the normalised
    rows: the kernel's result array is that table of the two arrays its region reads, those arrays are the
    reference's normalised stages, and the reference's result is that table of its stages. -/
theorem algebraic : Cert.algebraic_KernelIdeal_ReferenceIdeal := by
  intro m ρ m' ρ' _ hagree
  refine ⟨fun c => scaledGram (Cert.KernelIdeal.GramArray.firstRows m c) (Cert.KernelIdeal.GramArray.secondRows m c),
    Cert.KernelIdeal.GramArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefGram.result_is_scaledGram,
    (hagree c).1, (hagree c).2]
  exact (congrArg₂ scaledGram (Cert.KernelIdeal.NormalizedRows.first_rows m c)
    (Cert.KernelIdeal.NormalizedRows.second_rows m c)).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
